-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩

class Facts : Prop where
  bcast_S_S6400x6400 : S_.BroadcastsInDim S6400x6400 (![] : Fin 0 → Fin S6400x6400.rank)
  reducesTo_S6400x6400_S_d0_1 : S6400x6400.ReducesTo [0, 1] S_
  h_S_ : 0 < S_.numel
  bcast_S_S6400x128 : S_.BroadcastsInDim S6400x128 (![] : Fin 0 → Fin S6400x128.rank)
  reducesTo_S6400x128_S_d0_1 : S6400x128.ReducesTo [0, 1] S_
  bcast_S_S128x128 : S_.BroadcastsInDim S128x128 (![] : Fin 0 → Fin S128x128.rank)
  reducesTo_S128x128_S_d0_1 : S128x128.ReducesTo [0, 1] S_
  bcast_S_S200x200 : S_.BroadcastsInDim S200x200 (![] : Fin 0 → Fin S200x200.rank)
  reducesTo_S200x200_S_d0_1 : S200x200.ReducesTo [0, 1] S_

variable [Facts]

def fn_part1 {F : FTy → Type} [FloatOps F] (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  main_v18

def fn {F : FTy → Type} [FloatOps F] (main_arg0 : FVec F S6400x6400 .f32) (main_arg1 : FVec F S6400x128 .f32) (main_arg2 : FVec F S128x128 .f32) (main_arg3 : FVec F S200x200 .f32) : IVec S_ 1 :=
  let main_v0 : FVec F S6400x6400 .f32 := Host.absf main_arg0
  let main_cst : FVec F S_ .f32 := constant S_ .f32 0x7F800000#32
  let main_v1 : FVec F S6400x6400 .f32 := broadcastInDim S6400x6400 ![] bcast_S_S6400x6400 main_cst
  let main_v2 : IVec S6400x6400 1 := cmpf .olt main_v0 main_v1
  let main_c : IVec S_ 1 := constantI S_ 1 1#1
  let main_v3 : IVec S_ 1 := (fun x v => Host.reduce IntOp.andi x v reducesTo_S6400x6400_S_d0_1 h_S_) main_v2 main_c
  let main_v4 : FVec F S6400x128 .f32 := Host.absf main_arg1
  let main_cst_0 : FVec F S_ .f32 := constant S_ .f32 0x7F800000#32
  let main_v5 : FVec F S6400x128 .f32 := broadcastInDim S6400x128 ![] bcast_S_S6400x128 main_cst_0
  let main_v6 : IVec S6400x128 1 := cmpf .olt main_v4 main_v5
  let main_c_1 : IVec S_ 1 := constantI S_ 1 1#1
  let main_v7 : IVec S_ 1 := (fun x v => Host.reduce IntOp.andi x v reducesTo_S6400x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S200x200 .f32 := Host.absf main_arg3
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_v13 main_v16
-- ==== Kernel.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩
abbrev S1x200x1x200 : Shape := ⟨4, ![1, 200, 1, 200]⟩
abbrev S1x200x32x200 : Shape := ⟨4, ![1, 200, 32, 200]⟩
abbrev S200x6400 : Shape := ⟨2, ![200, 6400]⟩
abbrev S800x128 : Shape := ⟨2, ![800, 128]⟩
abbrev S200x128 : Shape := ⟨2, ![200, 128]⟩
abbrev S1x6400 : Shape := ⟨2, ![1, 6400]⟩

abbrev nBuf : Space → Nat
  | .hbm => 22
  | .vmem => 11
  | .smem => 0
  | _ => 0

abbrev bufTy : (tb : Table) → Fin (tcTables nBuf tb) → BufTy
  | .hbm, ⟨0, _⟩ => ⟨S6400x6400, .f32⟩
  | .hbm, ⟨1, _⟩ => ⟨S6400x128, .f32⟩
  | .hbm, ⟨2, _⟩ => ⟨S128x128, .f32⟩
  | .hbm, ⟨3, _⟩ => ⟨S200x200, .f32⟩
  | .hbm, ⟨4, _⟩ => ⟨S200x200, .f32⟩
  | .hbm, ⟨5, _⟩ => ⟨S200x200, .f32⟩
  | .hbm, ⟨6, _⟩ => ⟨S_, .f32⟩
  | .hbm, ⟨7, _⟩ => ⟨S200x200, .f32⟩
  | .hbm, ⟨8, _⟩ => ⟨S200x200, .f32⟩
  | .hbm, ⟨9, _⟩ => ⟨S200x200, .i32⟩
  | .hbm, ⟨10, _⟩ => ⟨S200x200, .i32⟩
  | .hbm, ⟨11, _⟩ => ⟨S_, .i32⟩
  | .hbm, ⟨12, _⟩ => ⟨S200x200, .i32⟩
  | .hbm, ⟨13, _⟩ => ⟨S200x200, .i32⟩
  | .hbm, ⟨14, _⟩ => ⟨S200x200, .i1⟩
  | .hbm, ⟨15, _⟩ => ⟨S200x200, .f32⟩
  | .hbm, ⟨16, _⟩ => ⟨S200x200, .f32⟩
  | .hbm, ⟨17, _⟩ => ⟨S1x200x1x200, .f32⟩
  | .hbm, ⟨18, _⟩ => ⟨S1x200x32x200, .f32⟩
  | .hbm, ⟨19, _⟩ => ⟨S200x6400, .f32⟩
  | .hbm, ⟨20, _⟩ => ⟨S6400x128, .f32⟩
  | .hbm, ⟨21, _⟩ => ⟨S6400x128, .f32⟩
  | .local _ .vmem, ⟨0, _⟩ => ⟨S800x128, .f32⟩
  | .local _ .vmem, ⟨1, _⟩ => ⟨S800x128, .f32⟩
  | .local _ .vmem, ⟨2, _⟩ => ⟨S128x128, .f32⟩
  | .local _ .vmem, ⟨3, _⟩ => ⟨S800x128, .f32⟩
  | .local _ .vmem, ⟨4, _⟩ => ⟨S800x128, .f32⟩
  | .local _ .vmem, ⟨5, _⟩ => ⟨S200x6400, .f32⟩
  | .local _ .vmem, ⟨6, _⟩ => ⟨S200x6400, .f32⟩
  | .local _ .vmem, ⟨7, _⟩ => ⟨S200x6400, .f32⟩
  | .local _ .vmem, ⟨8, _⟩ => ⟨S6400x128, .f32⟩
  | .local _ .vmem, ⟨9, _⟩ => ⟨S200x128, .f32⟩
  | .local _ .vmem, ⟨10, _⟩ => ⟨S200x128, .f32⟩
  | _, _ => ⟨S6400x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x6400 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S6400x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S200x200_S200x200_1_0 : S200x200.Transposes [1, 0] S200x200
  bcast_S_S200x200 : S_.BroadcastsInDim S200x200 (![] : Fin 0 → Fin S200x200.rank)
  shapeCasts_S200x200_S1x200x1x200 : S200x200.ShapeCasts S1x200x1x200
  bcast_S1x200x1x200_S1x200x32x200_0_1_2_3 : S1x200x1x200.BroadcastsInDim S1x200x32x200 (![0, 1, 2, 3] : Fin 4 → Fin S1x200x32x200.rank)
  shapeCasts_S1x200x32x200_S200x6400 : S1x200x32x200.ShapeCasts S200x6400
  inb_S800x128_S800x128_0_0 : ∀ a, (![0, 0] : Fin 2 → Nat) a + S800x128.size a ≤ S800x128.size a
  h_S800x128 : 0 < S800x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  iota_S1x6400_d1_w32 : S1x6400.Iotas .tc 32 [1]
  natLt_1_32 : 1 < 32
  inb_S200x6400_S200x6400_0_0 : ∀ a, (![0, 0] : Fin 2 → Nat) a + S200x6400.size a ≤ S200x6400.size a
  h_S200x6400 : 0 < S200x6400.numel
  shapeCasts_S200x6400_S200x6400 : S200x6400.ShapeCasts S200x6400
  broadcasts_S1x6400_S200x6400 : S1x6400.Broadcasts S200x6400
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S200x128_S200x128_0_0 : ∀ a, (![0, 0] : Fin 2 → Nat) a + S200x128.size a ≤ S200x128.size a
  h_S200x128 : 0 < S200x128.numel
  dot_S800x128_S128x128_S800x128_1_0_0_1_n_n_wf : DotDims.WF S800x128 S128x128 S800x128 [1] [0] [0] [1] [] []
  dot_S200x6400_S6400x128_S200x128_1_0_0_1_n_n_wf : DotDims.WF S200x6400 S6400x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x128.size a ≤ S6400x128.size a
  hwx0_0 : ∀ i : grid0.Coords, EltTy.bits .f32 = 32 ∨ (Rect.block (s := S6400x128) S800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x128.size a ≤ S6400x128.size a
  hwx0_2 : ∀ i : grid0.Coords, EltTy.bits .f32 = 32 ∨ (Rect.block (s := S6400x128) S800x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x6400.size a ≤ S6400x6400.size a
  hwx1_0 : ∀ i : grid1.Coords, EltTy.bits .f32 = 32 ∨ (Rect.block (s := S6400x6400) S200x6400.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x6400.size a ≤ S200x6400.size a
  hwx1_1 : ∀ i : grid1.Coords, EltTy.bits .f32 = 32 ∨ (Rect.block (s := S200x6400) S200x6400.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S6400x128.size a
  hwx1_2 : ∀ i : grid1.Coords, EltTy.bits .f32 = 32 ∨ (Rect.block (s := S6400x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S6400x128.size a
  hwx1_3 : ∀ i : grid1.Coords, EltTy.bits .f32 = 32 ∨ (Rect.block (s := S6400x128) S200x128.size (cc1_transform_3 i) (hinb1_3 i)).WholeWords (EltTy.packing .f32)

variable [Facts₀]

def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf
def dot_S200x6400_S6400x128_S200x128_1_0_0_1_n_n : DotDims S200x6400 S6400x128 S200x128 where
  lhsContracting := [1]
  rhsContracting := [0]
  lhsNonContracting := [0]
  rhsNonContracting := [1]
  lhsBatch := []
  rhsBatch := []
  wf := dot_S200x6400_S6400x128_S200x128_1_0_0_1_n_n_wf

abbrev win0_0 : Pipeline.Window sig grid0 :=
  Pipeline.Window.ofSpec (Memref.whole main_arg1) S800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S800x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S200x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S200x6400.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S6400x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩
abbrev S32 : Shape := ⟨1, ![32]⟩
abbrev S32x200x32x200 : Shape := ⟨4, ![32, 200, 32, 200]⟩
abbrev S32x1 : Shape := ⟨2, ![32, 1]⟩
abbrev S32x2 : Shape := ⟨2, ![32, 2]⟩
abbrev S32x200x200 : Shape := ⟨3, ![32, 200, 200]⟩
abbrev S1x200x200 : Shape := ⟨3, ![1, 200, 200]⟩
abbrev S32x200x128 : Shape := ⟨3, ![32, 200, 128]⟩

abbrev nBuf : Space → Nat
  | .hbm => 52
  | .vmem => 0
  | .smem => 0
  | _ => 0

abbrev bufTy : (tb : Table) → Fin (tcTables nBuf tb) → BufTy
  | .hbm, ⟨0, _⟩ => ⟨S6400x6400, .f32⟩
  | .hbm, ⟨1, _⟩ => ⟨S6400x128, .f32⟩
  | .hbm, ⟨2, _⟩ => ⟨S128x128, .f32⟩
  | .hbm, ⟨3, _⟩ => ⟨S200x200, .f32⟩
  | .hbm, ⟨4, _⟩ => ⟨S200x200, .f32⟩
  | .hbm, ⟨5, _⟩ => ⟨S200x200, .f32⟩
  | .hbm, ⟨6, _⟩ => ⟨S_, .f32⟩
  | .hbm, ⟨7, _⟩ => ⟨S200x200, .f32⟩
  | .hbm, ⟨8, _⟩ => ⟨S200x200, .f32⟩
  | .hbm, ⟨9, _⟩ => ⟨S200x200, .i32⟩
  | .hbm, ⟨10, _⟩ => ⟨S200x200, .i32⟩
  | .hbm, ⟨11, _⟩ => ⟨S_, .i32⟩
  | .hbm, ⟨12, _⟩ => ⟨S200x200, .i32⟩
  | .hbm, ⟨13, _⟩ => ⟨S200x200, .i32⟩
  | .hbm, ⟨14, _⟩ => ⟨S200x200, .i1⟩
  | .hbm, ⟨15, _⟩ => ⟨S200x200, .f32⟩
  | .hbm, ⟨16, _⟩ => ⟨S200x200, .f32⟩
  | .hbm, ⟨17, _⟩ => ⟨S32, .i32⟩
  | .hbm, ⟨18, _⟩ => ⟨S32x200x32x200, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x1, .i32⟩
  | .hbm, ⟨35, _⟩ => ⟨S32x2, .i32⟩
  | .hbm, ⟨36, _⟩ => ⟨S32x200x200, .f32⟩
  | .hbm, ⟨37, _⟩ => ⟨S32x200x200, .f32⟩
  | .hbm, ⟨38, _⟩ => ⟨S32x200x200, .f32⟩
  | .hbm, ⟨39, _⟩ => ⟨S_, .f32⟩
  | .hbm, ⟨40, _⟩ => ⟨S32x200x200, .f32⟩
  | .hbm, ⟨41, _⟩ => ⟨S32x200x200, .f32⟩
  | .hbm, ⟨42, _⟩ => ⟨S_, .f32⟩
  | .hbm, ⟨43, _⟩ => ⟨S32x200x200, .f32⟩
  | .hbm, ⟨44, _⟩ => ⟨S32x200x200, .f32⟩
  | .hbm, ⟨45, _⟩ => ⟨S1x200x200, .f32⟩
  | .hbm, ⟨46, _⟩ => ⟨S32x200x200, .f32⟩
  | .hbm, ⟨47, _⟩ => ⟨S32x200x200, .f32⟩
  | .hbm, ⟨48, _⟩ => ⟨S6400x128, .f32⟩
  | .hbm, ⟨49, _⟩ => ⟨S32x200x128, .f32⟩
  | .hbm, ⟨50, _⟩ => ⟨S32x200x128, .f32⟩
  | .hbm, ⟨51, _⟩ => ⟨S6400x128, .f32⟩
  | _, _ => ⟨S6400x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S200x200_S200x200_1_0 : S200x200.Transposes [1, 0] S200x200
  bcast_S_S200x200 : S_.BroadcastsInDim S200x200 (![] : Fin 0 → Fin S200x200.rank)
  shapeCasts_S6400x6400_S32x200x32x200 : S6400x6400.ShapeCasts S32x200x32x200
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S_S32x200x200 : S_.BroadcastsInDim S32x200x200 (![] : Fin 0 → Fin S32x200x200.rank)
  bcast_S200x200_S1x200x200_1_2 : S200x200.BroadcastsInDim S1x200x200 (![1, 2] : Fin 2 → Fin S1x200x200.rank)
  bcast_S1x200x200_S32x200x200_0_1_2 : S1x200x200.BroadcastsInDim S32x200x200 (![0, 1, 2] : Fin 3 → Fin S32x200x200.rank)
  shapeCasts_S6400x128_S32x200x128 : S6400x128.ShapeCasts S32x200x128
  shapeCasts_S32x200x128_S6400x128 : S32x200x128.ShapeCasts S6400x128
  gather_S32x200x32x200_S32x2_S32x200x200_12_02_n_n_02_1_12001200_wf : GatherDims.WF S32x200x32x200 S32x2 S32x200x200 [1, 2] [0, 2] [] [0, 2] [] 1 ![1, 200, 1, 200]
  dot_S6400x128_S128x128_S6400x128_1_0_0_1_n_n_wf : DotDims.WF S6400x128 S128x128 S6400x128 [1] [0] [0] [1] [] []
  dot_S32x200x200_S32x200x128_S32x200x128_2_1_1_2_0_0_wf : DotDims.WF S32x200x200 S32x200x128 S32x200x128 [2] [1] [1] [2] [0] [0]

variable [Facts₀]

def gather_S32x200x32x200_S32x2_S32x200x200_12_02_n_n_02_1_12001200 : GatherDims S32x200x32x200 S32x2 S32x200x200 where
  offsetDims := [1, 2]
  collapsedSliceDims := [0, 2]
  operandBatchingDims := []
  startIndicesBatchingDims := []
  startIndexMap := [0, 2]
  indexVectorDim := 1
  sliceSizes := ![1, 200, 1, 200]
  wf := gather_S32x200x32x200_S32x2_S32x200x200_12_02_n_n_02_1_12001200_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S32x200x200_S32x200x128_S32x200x128_2_1_1_2_0_0 : DotDims S32x200x200 S32x200x128 S32x200x128 where
  lhsContracting := [2]
  rhsContracting := [1]
  lhsNonContracting := [1]
  rhsNonContracting := [2]
  lhsBatch := [0]
  rhsBatch := [0]
  wf := dot_S32x200x200_S32x200x128_S32x200x128_2_1_1_2_0_0_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  The masked graph convolution over 32 graphs of 200 nodes, as ONE function of the argument arrays, index by index.

  Row `r` of the 6400 belongs to graph `r / 200` and is node `r % 200` of it; the graph's own nodes are the rows (and the
  columns of the adjacency) `(r / 200) · 200 + j`, `j < 200`. With `σ` the logistic function, `μ` the 200 × 200 edge mask and
  `S = feat · weight` the support, the result at `(r, f)` is

      ∑ j < 200, (σ (adj (r, (r / 200) · 200 + j)) · μ (r % 200, j)) · S ((r / 200) · 200 + j, f).

  The mask is carried as an arbitrary function: both programs compute it by the same operations of the fourth argument.
-/
import Idealize.ShloMosaic.PureOps.Ideal.Laws
import Idealize.ShloMosaic.Lib.ValueIdx

noncomputable section

namespace Cert.GraphConv

open Idealize.ShloMosaic Idealize.ShloMosaic.ValueIdx

/-- Node `j` of the graph that row `r` belongs to, as a row (or adjacency column) of the whole batch. -/
def lane (r : Fin 6400) (j : Fin 200) : Fin 6400 := ⟨r.val / 200 * 200 + j.val, by have := r.isLt; have := j.isLt; omega⟩

/-- Row `r`'s node number inside its graph. -/
def node (r : Fin 6400) : Fin 200 := ⟨r.val % 200, Nat.mod_lt _ (by decide)⟩

theorem lane_val (r : Fin 6400) (j : Fin 200) : (lane r j).val = r.val / 200 * 200 + j.val := rfl
theorem node_val (r : Fin 6400) : (node r).val = r.val % 200 := rfl

/-- The support `feat · weight`, at `(r, f)`: the sum over the 128 input features. -/
def support (feat : (⟨2, ![6400, 128]⟩ : Shape).Idx → EReal) (weight : (⟨2, ![128, 128]⟩ : Shape).Idx → EReal) :
    (⟨2, ![6400, 128]⟩ : Shape).Idx → EReal :=
  fun o => ∑ k : Fin 128, feat (ix2 ⟨(o 0).val, idx2_lt0 o⟩ k) * weight (ix2 k ⟨(o 1).val, idx2_lt1 o⟩)

theorem support_apply (feat : (⟨2, ![6400, 128]⟩ : Shape).Idx → EReal) (weight : (⟨2, ![128, 128]⟩ : Shape).Idx → EReal)
    (r : Fin 6400) (f : Fin 128) : support feat weight (ix2 r f) = ∑ k : Fin 128, feat (ix2 r k) * weight (ix2 k f) := rfl

/-- The convolution's result, at `(r, f)`: the sum over the 200 nodes of row `r`'s own graph. -/
def conv (adj : (⟨2, ![6400, 6400]⟩ : Shape).Idx → EReal) (μ : (⟨2, ![200, 200]⟩ : Shape).Idx → EReal)
    (S : (⟨2, ![6400, 128]⟩ : Shape).Idx → EReal) : (⟨2, ![6400, 128]⟩ : Shape).Idx → EReal :=
  fun o => ∑ j : Fin 200,
    (Ideal.logistic (adj (ix2 ⟨(o 0).val, idx2_lt0 o⟩ (lane ⟨(o 0).val, idx2_lt0 o⟩ j))) * μ (ix2 (node ⟨(o 0).val, idx2_lt0 o⟩) j))
      * S (ix2 (lane ⟨(o 0).val, idx2_lt0 o⟩ j) ⟨(o 1).val, idx2_lt1 o⟩)

theorem conv_apply (adj : (⟨2, ![6400, 6400]⟩ : Shape).Idx → EReal) (μ : (⟨2, ![200, 200]⟩ : Shape).Idx → EReal)
    (S : (⟨2, ![6400, 128]⟩ : Shape).Idx → EReal) (r : Fin 6400) (f : Fin 128) :
    conv adj μ S (ix2 r f) = ∑ j : Fin 200, (Ideal.logistic (adj (ix2 r (lane r j))) * μ (ix2 (node r) j)) * S (ix2 (lane r j) f) := rfl

/-- The mask laid side by side 32 times: column `k` of the 6400 reads the mask's column `k % 200`. -/
def tile (μ : (⟨2, ![200, 200]⟩ : Shape).Idx → EReal) : (⟨2, ![200, 6400]⟩ : Shape).Idx → EReal :=
  fun o => μ (ix2 ⟨(o 0).val, idx2_lt0 o⟩ ⟨(o 1).val % 200, Nat.mod_lt _ (by decide)⟩)

theorem tile_apply (μ : (⟨2, ![200, 200]⟩ : Shape).Idx → EReal) (p : Fin 200) (k : Fin 6400) :
    tile μ (ix2 p k) = μ (ix2 p ⟨k.val % 200, Nat.mod_lt _ (by decide)⟩) := rfl

end Cert.GraphConv

end
-- ==== Proof.Band.lean ====
/-
  The band test of a lane, as words.

  The body tests lane `k` of the 6400 for membership in band `b` (lanes `200 b … 200 b + 199`) by `k // 200 == b`, where `//` is
  floor division spelt in machine operations: the signed quotient rounded toward zero, lowered by one where the signs of dividend
  and divisor differ and the remainder is not zero. On a lane number the dividend is never negative and the divisor is 200, so
  the signed quotient and remainder are the natural ones (`divsi_200`, `remsi_200`), the correction never fires, and the word is
  that of `k / 200` (`floorQuot_eq`). Two quotients below 32 have equal words iff they are equal (`bandBit_eq`), and the test's
  0/1 word converted to a float is the extended real 0 or 1 (`ind_val`).
-/
import Idealize.ShloMosaic.PureOps.Ideal.Laws
import Idealize.ShloMosaic.Lib.ValueIdx

noncomputable section

open Idealize.ShloMosaic Idealize.ShloMosaic.ValueIdx

namespace Cert.GraphConv

/-- Floor division by 200 of a 32-bit word, in the body's operations: quotient toward zero, minus one where the sign words of
    dividend and divisor differ and the remainder is not zero. -/
def floorQuot (kw : BitVec 32) : BitVec 32 :=
  Scalar.select
    (IntOp.andi
      (IntOp.cmpi .ne
        (IntOp.subi ((IntOp.cmpi .sgt kw 0#32).setWidth 32) ((IntOp.cmpi .slt kw 0#32).setWidth 32))
        (Scalar.subi (Scalar.extui (Scalar.cmpi .sgt 200#32 0#32)) (Scalar.extui (Scalar.cmpi .slt 200#32 0#32))))
      (IntOp.cmpi .ne (IntOp.remsi .vector kw 200#32) 0#32))
    (IntOp.subi (IntOp.divsi .vector kw 200#32) 1#32)
    (IntOp.divsi .vector kw 200#32)

/-- Dividing by 200 is never the signed division's corner (a zero divisor, or the least integer by minus one). -/
theorem not_corner (x : BitVec 32) : ¬ IntOp.SDivCorner x 200#32 := by
  rintro (h | ⟨_, h⟩) <;> exact absurd h (by decide)

/-- The signed quotient by 200 of a word below 2³¹ is the natural quotient. -/
theorem divsi_200 (x : BitVec 32) (hx : x.toNat < 2 ^ 31) : IntOp.divsi .vector x 200#32 = BitVec.ofNat 32 (x.toNat / 200) := by
  unfold IntOp.divsi
  rw [if_neg (not_corner x)]
  have hm : x.msb = false := by rw [BitVec.msb_eq_false_iff_two_mul_lt]; omega
  rw [BitVec.sdiv_eq, hm]
  have hm2 : (200#32 : BitVec 32).msb = false := by decide
  rw [hm2]
  apply BitVec.eq_of_toNat_eq
  simp only [BitVec.udiv_eq, BitVec.toNat_udiv, BitVec.toNat_ofNat, Nat.reducePow, Nat.reduceMod]
  omega

/-- The signed remainder by 200 of a word below 2³¹ is the natural remainder. -/
theorem remsi_200 (x : BitVec 32) (hx : x.toNat < 2 ^ 31) : IntOp.remsi .vector x 200#32 = BitVec.ofNat 32 (x.toNat % 200) := by
  unfold IntOp.remsi
  rw [if_neg (not_corner x)]
  have hm : x.msb = false := by rw [BitVec.msb_eq_false_iff_two_mul_lt]; omega
  rw [BitVec.srem_eq, hm]
  have hm2 : (200#32 : BitVec 32).msb = false := by decide
  rw [hm2]
  apply BitVec.eq_of_toNat_eq
  simp only [BitVec.umod_eq, BitVec.toNat_umod, BitVec.toNat_ofNat, Nat.reducePow, Nat.reduceMod]
  omega

/-- The sign test of the floor correction never fires on a lane number: the dividend is not negative and the divisor is positive, so
    the signs differ only at zero, where the remainder is zero. -/
theorem floorQuot_eq (k : Fin 6400) : floorQuot (BitVec.ofNat 32 k.val) = BitVec.ofNat 32 (k.val / 200) := by
  have hk : (BitVec.ofNat 32 k.val).toNat = k.val := by
    rw [BitVec.toNat_ofNat]; exact Nat.mod_eq_of_lt (by have := k.isLt; omega)
  have hlt : (BitVec.ofNat 32 k.val).toNat < 2 ^ 31 := by rw [hk]; have := k.isLt; omega
  unfold floorQuot
  rw [divsi_200 _ hlt, remsi_200 _ hlt, hk]
  by_cases h0 : k.val = 0
  · rw [h0]; decide
  · -- a positive lane: the dividend's sign word is 1, the divisor's is 1: they agree, the test is off
    have hi : (BitVec.ofNat 32 k.val).toInt = (k.val : Int) := by
      rw [BitVec.toInt_eq_toNat_of_lt (by rw [hk]; have := k.isLt; omega), hk]
    have hz : (0#32 : BitVec 32).toInt = 0 := by decide
    have hs : IntOp.cmpi .sgt (BitVec.ofNat 32 k.val) 0#32 = 1#1 := by
      unfold IntOp.cmpi
      show BitVec.ofBool ((0#32 : BitVec 32).slt (BitVec.ofNat 32 k.val)) = 1#1
      have : (0#32 : BitVec 32).slt (BitVec.ofNat 32 k.val) = true := by
        rw [BitVec.slt_eq_decide, hi, hz]
        exact decide_eq_true (by omega)
      rw [this]; rfl
    have hn : IntOp.cmpi .slt (BitVec.ofNat 32 k.val) 0#32 = 0#1 := by
      unfold IntOp.cmpi
      show BitVec.ofBool ((BitVec.ofNat 32 k.val).slt 0#32) = 0#1
      have : (BitVec.ofNat 32 k.val).slt 0#32 = false := by
        rw [BitVec.slt_eq_decide, hi, hz]
        exact decide_eq_false (by omega)
      rw [this]; rfl
    rw [hs, hn]
    have : IntOp.cmpi .ne (IntOp.subi ((1#1 : BitVec 1).setWidth 32) ((0#1 : BitVec 1).setWidth 32))
        (Scalar.subi (Scalar.extui (Scalar.cmpi .sgt 200#32 0#32)) (Scalar.extui (Scalar.cmpi .slt 200#32 0#32))) = 0#1 := by decide
    rw [this]
    show Scalar.select (IntOp.andi 0#1 _) _ _ = _
    have h2 : ∀ y : BitVec 1, IntOp.andi 0#1 y = 0#1 := by decide
    rw [h2]
    rfl

/-- Two band numbers below 32 have equal words iff they are equal: the equality test's bit, widened. -/
theorem bandBit_eq : ∀ (g b : Fin 32), (IntOp.cmpi .eq (BitVec.ofNat 32 g.val) (BitVec.ofNat 32 b.val)).setWidth 32
    = if g.val = b.val then 1#32 else 0#32 := by
  decide +kernel

/-- The widened test bit converted to a float: the extended real 1 or 0. -/
theorem ind_val (c : Prop) [Decidable c] :
    FloatOps.sitofp (F := Ideal) .f32 (if c then 1#32 else 0#32) = if c then (1 : EReal) else 0 := by
  split
  · show (((1#32 : BitVec 32).toInt : ℝ) : EReal) = 1
    norm_num
  · show (((0#32 : BitVec 32).toInt : ℝ) : EReal) = 0
    norm_num
end Cert.GraphConv
end
-- ==== Proof.KernelPay.lean ====
/-
  What each kernel body stores, read at an element, on the extended reals.

  Region 0 stores the product of its 800 × 128 block of `feat` with `weight`: at `(p, q)` the sum over the 128 input features.
  Region 1, at grid point `i`, stores a 200 × 6400 by 6400 × 128 product whose left factor at `(p, k)` is
  `σ (x₀ (p, k)) · x₁ (p, k) · [k / 200 = i]`: the logistic of the adjacency band, times the tiled mask, times the 0/1 indicator
  that lane `k` lies in the point's own band of 200 lanes. The narrowing to bf16 before each product is the identity here.
-/
import proofs.«166309_j39565238731020_1_alg».proof.Proof.FrameKernelIdeal
import proofs.«166309_j39565238731020_1_alg».proof.Proof.LibRowwise
import proofs.«166309_j39565238731020_1_alg».proof.Proof.Spec
import proofs.«166309_j39565238731020_1_alg».proof.Proof.Band

noncomputable section
open Idealize.ShloMosaic Idealize.ShloMosaic.TcCoe Idealize.ShloMosaic.ValueIdx
open Cert.KernelIdeal Cert.KernelIdeal.Gen Cert.Lib.Rowwise

namespace Cert.KernelIdeal.Conv

/-- A row `[1, B]` broadcast down `A` rows reads, at `(p, k)`, the row at `(0, k)`. -/
theorem rowBroadcast_apply {α : Type} {A B : Nat} (v : (⟨2, ![1, B]⟩ : Shape).Idx → α) (h : (⟨2, ![1, B]⟩ : Shape).Broadcasts ⟨2, ![A, B]⟩)
    (hB : B ≠ 1) (p : Fin A) (k : Fin B) : broadcastTo ⟨2, ![A, B]⟩ v h (ix2 p k) = v (ix2 0 k) := by
  refine broadcastTo_apply v h (ix2 p k) (ix2 0 k) fun a => ?_
  match a with
  | ⟨0, _⟩ => exact (if_pos rfl).symm
  | ⟨1, _⟩ => exact (if_neg hB).symm

/-- Region 0's stored value at `(p, q)`: the product's sum over the 128 input features. -/
theorem pay0_apply (x0 : Vec Ideal S800x128 .f32) (x1 : Vec Ideal S128x128 .f32) (p : Fin 800) (q : Fin 128) :
    k0_pay1 (F := Ideal) x0 x1 (ix2 p q) = ∑ k : Fin 128, x0 (ix2 p k) * x1 (ix2 k q) := by
  unfold k0_pay1
  rw [eq_plain dot_S800x128_S128x128_S800x128_1_0_0_1_n_n rfl rfl rfl rfl rfl rfl]
  exact plain_matmul_zero_apply none _ _ p q

/-- Region 1's stored value at `(p, q)` at grid point `i`: the sum over all 6400 lanes, each term carrying its band indicator. -/
theorem pay1_apply (i : grid1.Coords) (x0 x1 : Vec Ideal S200x6400 .f32) (x2 : Vec Ideal S6400x128 .f32) (p : Fin 200) (q : Fin 128) :
    k1_pay1 (F := Ideal) i x0 x1 x2 (ix2 p q)
      = ∑ k : Fin 6400, (Ideal.logistic (x0 (ix2 p k)) * x1 (ix2 p k) * (if k.val / 200 = (i 0).val then (1 : EReal) else 0)) * x2 (ix2 k q) := by
  unfold k1_pay1
  dsimp only
  rw [eq_plain dot_S200x6400_S6400x128_S200x128_1_0_0_1_n_n rfl rfl rfl rfl rfl rfl]
  refine (plain_matmul_zero_apply none _ _ p q).trans ?_
  refine Finset.sum_congr rfl fun k _ => ?_
  rw [shapeCast_self, shapeCast_self]
  show (Ideal.logistic (x0 (ix2 p k)) * x1 (ix2 p k) * broadcastTo S200x6400 _ broadcasts_S1x6400_S200x6400 (ix2 p k)) * x2 (ix2 k q) = _
  rw [rowBroadcast_apply _ broadcasts_S1x6400_S200x6400 (by decide) p k]
  show (Ideal.logistic (x0 (ix2 p k)) * x1 (ix2 p k) * FloatOps.sitofp (F := Ideal) .f32
      ((IntOp.cmpi .eq (Cert.GraphConv.floorQuot (iota .tc S1x6400 32 [1] iota_S1x6400_d1_w32 (ix2 0 k))) (BitVec.ofNat 32 (i 0).val)).setWidth 32)) * x2 (ix2 k q) = _
  rw [iota_single_apply]
  show (Ideal.logistic (x0 (ix2 p k)) * x1 (ix2 p k) * FloatOps.sitofp (F := Ideal) .f32
      ((IntOp.cmpi .eq (Cert.GraphConv.floorQuot (BitVec.ofNat 32 k.val)) (BitVec.ofNat 32 (i 0).val)).setWidth 32)) * x2 (ix2 k q) = _
  rw [Cert.GraphConv.floorQuot_eq k]
  have hb := Cert.GraphConv.bandBit_eq ⟨k.val / 200, by have := k.isLt; omega⟩ ⟨(i 0).val, (i 0).isLt⟩
  rw [show (IntOp.cmpi .eq (BitVec.ofNat 32 (k.val / 200)) (BitVec.ofNat 32 (i 0).val)).setWidth 32
      = if k.val / 200 = (i 0).val then 1#32 else 0#32 from hb, Cert.GraphConv.ind_val]

end Cert.KernelIdeal.Conv
end
-- ==== Proof.BandSum.lean ====
/-
  A sum over `A · B` lanes, laid out as `A` consecutive bands of `B` lanes, whose terms vanish outside ONE band is the sum
  over that band: the lanes are the pairs (band, offset), the sum over pairs is the sum over bands of the sums over offsets,
  and every band but one sums zeros. Holds in any additive commutative monoid, so on the extended reals no finiteness is asked.
-/
import Idealize.ShloMosaic.PureOps.Ideal.Laws
import Idealize.ShloMosaic.Lib.ValueIdx

noncomputable section

namespace Cert.GraphConv

/-- The band-sum law. `g j` is lane `b · B + j`: offset `j` of band `b`. -/
theorem sum_band {M : Type*} [AddCommMonoid M] {A B N : ℕ} (hN : N = A * B) (f : Fin N → M) (b : Fin A)
    (g : Fin B → Fin N) (hg : ∀ j, (g j).val = b.val * B + j.val)
    (hz : ∀ k : Fin N, k.val / B ≠ b.val → f k = 0) :
    ∑ k : Fin N, f k = ∑ j : Fin B, f (g j) := by
  subst hN
  rw [← Equiv.sum_comp finProdFinEquiv f, Fintype.sum_prod_type, Finset.sum_eq_single b]
  · refine Finset.sum_congr rfl fun j _ => congrArg f (Fin.ext ?_)
    rw [hg, finProdFinEquiv_apply_val]
    show j.val + B * b.val = b.val * B + j.val
    rw [Nat.mul_comm, Nat.add_comm]
  · intro a _ hab
    refine Finset.sum_eq_zero fun j _ => hz _ ?_
    rw [finProdFinEquiv_apply_val]
    show (j.val + B * a.val) / B ≠ b.val
    have hB : 0 < B := Nat.lt_of_le_of_lt (Nat.zero_le _) j.isLt
    rw [Nat.add_mul_div_left _ _ hB, Nat.div_eq_of_lt j.isLt, Nat.zero_add]
    exact fun e => hab (Fin.ext e)
  · intro h
    exact absurd (Finset.mem_univ b) h

end Cert.GraphConv

end
-- ==== Proof.KernelBlocks.lean ====
/-
  From what each grid point writes back to the whole result arrays.

  Region 0 has 8 points; point `t` reads rows `800 t … 800 t + 799` of `feat` and all of `weight` and writes the same rows of the
  support. Region 1 has 32 points, one per graph; point `t` reads rows `200 t … 200 t + 199` of the adjacency (all 6400 columns),
  the tiled mask and the whole support, and writes rows `200 t …` of the result. In both regions the written blocks tile the
  result array, every row `r` lying in the block of point `r / 800` (respectively `r / 200`), so the array after the region is one
  function of the arrays the region found: the support `feat · weight`, and the convolution. At a point of region 1 the stored
  6400-lane sum collapses to the 200 lanes of the point's own band by the band-sum law: off the band the indicator is 0 and
  `x · 0 · y = 0` for every extended real; on it the indicator is 1 and the tiled mask reads the mask.
-/
import proofs.«166309_j39565238731020_1_alg».proof.Proof.KernelPay
import proofs.«166309_j39565238731020_1_alg».proof.Proof.BandSum
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Conv

open Cert.KernelIdeal Cert.KernelIdeal.Gen Cert.KernelIdeal.GenP Cert.GraphConv

theorem hz2 : (![0, 0] : Fin 2 → Nat) = fun _ => 0 := funext fun a => by fin_cases a <;> rfl

/-! ## The per-point lemmas, over variables of the literal types -/

/-- Point `T` of region 0 against the whole product: if the first operand is rows `800 T …` of `A` and the second is `B`, the
    stored value at `y` is `A · B` at row `800 T + y₀`. -/
theorem pay0_block (x0 : Vec Ideal S800x128 .f32) (x1 : Vec Ideal S128x128 .f32)
    (A : (⟨2, ![6400, 128]⟩ : Shape).Idx → EReal) (B : (⟨2, ![128, 128]⟩ : Shape).Idx → EReal) (T : Nat)
    (h0 : ∀ (p : Fin 800) (k : Fin 128) (r : Fin 6400), r.val = T * 800 + p.val → x0 (ix2 p k) = A (ix2 r k))
    (h1 : ∀ (k q : Fin 128), x1 (ix2 k q) = B (ix2 k q))
    (y : (⟨2, ![800, 128]⟩ : Shape).Idx) (o : (⟨2, ![6400, 128]⟩ : Shape).Idx)
    (ho0 : (o 0).val = T * 800 + (y 0).val) (ho1 : (o 1).val = (y 1).val) :
    k0_pay1 (F := Ideal) x0 x1 y = support A B o := by
  obtain ⟨p, q, rfl⟩ : ∃ (p : Fin 800) (q : Fin 128), y = ix2 p q := ⟨y 0, y 1, eq_ix2 y⟩
  obtain ⟨r, f, rfl⟩ : ∃ (r : Fin 6400) (f : Fin 128), o = ix2 r f := ⟨o 0, o 1, eq_ix2 o⟩
  have hf : f = q := Fin.ext ho1
  subst hf
  rw [pay0_apply, support_apply]
  exact Finset.sum_congr rfl fun k _ => by rw [h0 p k r ho0, h1 k f]

/-- Point `T` of region 1 against the convolution: if the first operand is rows `200 T …` of `adj` (all 6400 columns), the second
    the tiled mask and the third the support, the stored value at `y` is the convolution at row `200 T + y₀`: of the 6400 lanes
    only band `T`'s carry a nonzero indicator (the band-sum law), and there the tiled mask reads the mask itself. -/
theorem pay1_block (i : grid1.Coords) (x0 x1 : Vec Ideal S200x6400 .f32) (x2 : Vec Ideal S6400x128 .f32)
    (adj : (⟨2, ![6400, 6400]⟩ : Shape).Idx → EReal) (μ : (⟨2, ![200, 200]⟩ : Shape).Idx → EReal)
    (S : (⟨2, ![6400, 128]⟩ : Shape).Idx → EReal) (T : Nat) (hT : T < 32) (hi : (i 0).val = T)
    (h0 : ∀ (p : Fin 200) (k : Fin 6400) (r : Fin 6400), r.val = T * 200 + p.val → x0 (ix2 p k) = adj (ix2 r k))
    (h1 : ∀ (p : Fin 200) (k : Fin 6400), x1 (ix2 p k) = tile μ (ix2 p k))
    (h2 : ∀ (k : Fin 6400) (q : Fin 128), x2 (ix2 k q) = S (ix2 k q))
    (y : (⟨2, ![200, 128]⟩ : Shape).Idx) (o : (⟨2, ![6400, 128]⟩ : Shape).Idx)
    (ho0 : (o 0).val = T * 200 + (y 0).val) (ho1 : (o 1).val = (y 1).val) :
    k1_pay1 (F := Ideal) i x0 x1 x2 y = conv adj μ S o := by
  obtain ⟨p, q, rfl⟩ : ∃ (p : Fin 200) (q : Fin 128), y = ix2 p q := ⟨y 0, y 1, eq_ix2 y⟩
  obtain ⟨r, f, rfl⟩ : ∃ (r : Fin 6400) (f : Fin 128), o = ix2 r f := ⟨o 0, o 1, eq_ix2 o⟩
  have hf : f = q := Fin.ext ho1
  subst hf
  have hr : r.val = T * 200 + p.val := ho0
  have hp : p.val < 200 := p.isLt
  rw [pay1_apply, conv_apply]
  refine (sum_band (A := 32) (B := 200) (N := 6400) rfl
    (fun k : Fin 6400 => (Ideal.logistic (x0 (ix2 p k)) * x1 (ix2 p k) * (if k.val / 200 = (i 0).val then (1 : EReal) else 0)) * x2 (ix2 k f))
    ⟨T, hT⟩ (lane r) (fun j => ?_) (fun k hk => ?_)).trans ?_
  · rw [lane_val]; show r.val / 200 * 200 + j.val = T * 200 + j.val; omega
  · have hk' : ¬ k.val / 200 = (i 0).val := by rw [hi]; exact hk
    show (Ideal.logistic (x0 (ix2 p k)) * x1 (ix2 p k) * (if k.val / 200 = (i 0).val then (1 : EReal) else 0)) * x2 (ix2 k f) = 0
    rw [if_neg hk', mul_zero, zero_mul]
  · refine Finset.sum_congr rfl fun j _ => ?_
    have hj : j.val < 200 := j.isLt
    have hl : (lane r j).val / 200 = (i 0).val := by rw [hi, lane_val]; omega
    have e1 : (⟨(lane r j).val % 200, Nat.mod_lt _ (by decide)⟩ : Fin 200) = j := Fin.ext (by show (lane r j).val % 200 = j.val; rw [lane_val]; omega)
    have e2 : p = node r := Fin.ext (by show p.val = r.val % 200; omega)
    show (Ideal.logistic (x0 (ix2 p (lane r j))) * x1 (ix2 p (lane r j)) * (if (lane r j).val / 200 = (i 0).val then (1 : EReal) else 0)) * x2 (ix2 (lane r j) f) = _
    rw [if_pos hl, mul_one, h0 p (lane r j) r hr, h1 p (lane r j), tile_apply, h2, e1, e2]

variable (V : (c : Dev nD) → (b : Ref sig .tc) → Buf (Elt Ideal) ((c : Thread nD τ).loc b))

/-! ## Region 0: the support, 800 rows a point -/

/-- The index maps of region 0 over its 8 points: `feat` and the result move down 800 rows a point, `weight` stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- `feat`'s block at point `t` is rows `800 t … 800 t + 799` of the array. -/
theorem featBlock (c : Dev nD) (t : Fin cfg0.N) (p : Fin 800) (k : Fin 128) (r : Fin 6400) (hr : r.val = t.val * 800 + p.val) :
    (iblk0 V c 0 t : Vec Ideal S800x128 .f32) (ix2 p k) = (V c main_arg1 : (⟨2, ![6400, 128]⟩ : Shape).Idx → EReal) (ix2 r k) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 800 + 1 * p.val = r.val; rw [e0, hr]; omega
  | ⟨1, _⟩ => show win0_0.index t 1 * 128 + 1 * k.val = k.val; rw [e1]; omega

/-- `weight`'s block at every point is the whole array. -/
theorem weightBlock (c : Dev nD) (t : Fin cfg0.N) (k q : Fin 128) :
    (iblk0 V c 1 t : Vec Ideal S128x128 .f32) (ix2 k q) = (V c main_arg2 : (⟨2, ![128, 128]⟩ : Shape).Idx → EReal) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point `t` writes back is block `t` of the support of the arrays as the region finds them. -/
theorem flushed0 (c : Dev nD) (t : Fin cfg0.N) :
    (dat0 V c).flushed 2 t = ((cfg0.win 2).blk t).view.read (Elt Ideal) (support (V c main_arg1) (V c main_arg2)) := by
  show (cfg0.win 2).cut (grid0.coords t) ((dat0 V c).after 2 t) = _
  rw [after0_2]
  unfold out0_2
  rw [View.canon_unit_zero hz2]
  simp only [View.ld_unit_zero (S := S800x128) hz2, View.ld_unit_zero (S := S128x128) hz2]
  obtain ⟨-, -, -, -, e4, e5⟩ := idx_facts0 t
  funext y
  refine pay0_block (iblk0 V c 0 t) (iblk0 V c 1 t) (V c main_arg1) (V c main_arg2) t.val
    (fun p k r hr => featBlock V c t p k r hr) (fun k q => weightBlock V c t k q) y (((cfg0.win 2).blk t).view.emb y) ?_ ?_
  · show win0_2.index t 0 * 800 + 1 * (y 0).val = t.val * 800 + (y 0).val; rw [e4]; omega
  · show win0_2.index t 1 * 128 + 1 * (y 1).val = (y 1).val; rw [e5]; omega

/-- An index of the support's array is in point `t`'s block iff each coordinate is in the block's range. -/
theorem mem_blk0 (t : Fin cfg0.N) (i : S6400x128.Idx) :
    i ∈ ((cfg0.win 2).blk t).view.set ↔ ∀ a : Fin 2, win0_2.index t a * S800x128.size a ≤ (i a).val ∧ (i a).val < win0_2.index t a * S800x128.size a + S800x128.size a := by
  show i ∈ ((View.whole main_v14).slice (win0_2.rect t)).set ↔ _
  rw [View.set_slice_whole, Rect.mem_set_unit]
  exact Iff.rfl

/-- Row `r` is covered by point `r / 800`. -/
theorem cover0 (i : S6400x128.Idx) : ∃ t : Fin cfg0.N, (cfg0.win 2).flush t = true ∧ i ∈ ((cfg0.win 2).blk t).view.set := by
  have h0 : (i 0).val < 6400 := (i 0).isLt
  have h1 : (i 1).val < 128 := (i 1).isLt
  have hN : cfg0.N = 8 := N_0
  refine ⟨⟨(i 0).val / 800, by rw [hN]; omega⟩, flush0_2 _, ?_⟩
  rw [mem_blk0]
  obtain ⟨-, -, -, -, e4, e5⟩ := idx_facts0 ⟨(i 0).val / 800, by rw [hN]; omega⟩
  intro a
  match a with
  | ⟨0, _⟩ => show win0_2.index _ 0 * 800 ≤ (i 0).val ∧ (i 0).val < win0_2.index _ 0 * 800 + 800; rw [e4]; show (i 0).val / 800 * 800 ≤ (i 0).val ∧ (i 0).val < (i 0).val / 800 * 800 + 800; omega
  | ⟨1, _⟩ => show win0_2.index _ 1 * 128 ≤ (i 1).val ∧ (i 1).val < win0_2.index _ 1 * 128 + 128; rw [e5]; omega

/-- Region 0 leaves the support in its result array. -/
theorem final0 (c : Dev nD) : (dat0 V c).arrAt 2 cfg0.N = support (V c main_arg1) (V c main_arg2) :=
  (dat0 V c).arrAt_eq_of_cover 2 _ (fun t _ => flushed0 V c t) cover0

/-! ## Region 1: the convolution, one graph (200 rows) a point -/

/-- The index maps of region 1 over its 32 points: the adjacency band and the result move down 200 rows a point, the tiled mask
    and the support stay; the body's grid coordinate is the point's number. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ ((grid1.coords t) 0).val = t.val :=
  (by decide +kernel : ∀ t : Fin grid1.N, _)

/-- The adjacency's block at point `t` is rows `200 t … 200 t + 199`, all 6400 columns. -/
theorem adjBlock (c : Dev nD) (t : Fin cfg1.N) (p : Fin 200) (k : Fin 6400) (r : Fin 6400) (hr : r.val = t.val * 200 + p.val) :
    (iblk1 V c 0 t : Vec Ideal S200x6400 .f32) (ix2 p k) = (V c main_arg0 : (⟨2, ![6400, 6400]⟩ : Shape).Idx → EReal) (ix2 r k) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 200 + 1 * p.val = r.val; rw [e0, hr]; omega
  | ⟨1, _⟩ => show win1_0.index t 1 * 6400 + 1 * k.val = k.val; rw [e1]; omega

/-- The tiled mask's block at every point is the whole array. -/
theorem maskBlock (c : Dev nD) (t : Fin cfg1.N) (p : Fin 200) (k : Fin 6400) :
    (iblk1 V c 1 t : Vec Ideal S200x6400 .f32) (ix2 p k) = (V c main_v13 : (⟨2, ![200, 6400]⟩ : Shape).Idx → EReal) (ix2 p k) := by
  obtain ⟨-, -, e2, e3, -⟩ := idx_facts1 t
  unfold iblk1
  rw [View.read_apply]
  show V c main_v13 _ = V c main_v13 _
  congr 1
  funext a
  apply Fin.ext
  match a with
  | ⟨0, _⟩ => show win1_1.index t 0 * 200 + 1 * p.val = p.val; rw [e2]; omega
  | ⟨1, _⟩ => show win1_1.index t 1 * 6400 + 1 * k.val = k.val; rw [e3]; omega

/-- The support's block at every point is the whole array. -/
theorem supBlock (c : Dev nD) (t : Fin cfg1.N) (k : Fin 6400) (q : Fin 128) :
    (iblk1 V c 2 t : Vec Ideal S6400x128 .f32) (ix2 k q) = (V c main_v14 : (⟨2, ![6400, 128]⟩ : Shape).Idx → EReal) (ix2 k q) := by
  obtain ⟨-, -, -, -, e4, e5, -⟩ := idx_facts1 t
  unfold iblk1
  rw [View.read_apply]
  show V c main_v14 _ = V c main_v14 _
  congr 1
  funext a
  apply Fin.ext
  match a with
  | ⟨0, _⟩ => show win1_2.index t 0 * 6400 + 1 * k.val = k.val; rw [e4]; omega
  | ⟨1, _⟩ => show win1_2.index t 1 * 128 + 1 * q.val = q.val; rw [e5]; omega

/-- What point `t` writes back is block `t` of the convolution of the arrays as the region finds them, when the second of them is
    a mask `μ` tiled. -/
theorem flushed1 (μ : (⟨2, ![200, 200]⟩ : Shape).Idx → EReal) (c : Dev nD)
    (hμ : (V c main_v13 : (⟨2, ![200, 6400]⟩ : Shape).Idx → EReal) = tile μ) (t : Fin cfg1.N) :
    (dat1 V c).flushed 3 t = ((cfg1.win 3).blk t).view.read (Elt Ideal) (conv (V c main_arg0) μ (V c main_v14)) := by
  show (cfg1.win 3).cut (grid1.coords t) ((dat1 V c).after 3 t) = _
  rw [after1_3]
  unfold out1_3
  rw [View.canon_unit_zero hz2]
  simp only [View.ld_unit_zero (S := S200x6400) hz2, View.ld_unit_zero (S := S6400x128) hz2]
  obtain ⟨-, -, -, -, -, -, e6, e7, e8⟩ := idx_facts1 t
  have hN : cfg1.N = 32 := N_1
  have ht : t.val < 32 := by have := t.isLt; omega
  funext y
  refine pay1_block (grid1.coords t) (iblk1 V c 0 t) (iblk1 V c 1 t) (iblk1 V c 2 t) (V c main_arg0) μ (V c main_v14) t.val ht e8
    (fun p k r hr => adjBlock V c t p k r hr) (fun p k => (maskBlock V c t p k).trans (congrFun hμ (ix2 p k)))
    (fun k q => supBlock V c t k q) y (((cfg1.win 3).blk t).view.emb y) ?_ ?_
  · show win1_3.index t 0 * 200 + 1 * (y 0).val = t.val * 200 + (y 0).val; rw [e6]; omega
  · show win1_3.index t 1 * 128 + 1 * (y 1).val = (y 1).val; rw [e7]; omega

/-- An index of the result's array is in point `t`'s block iff each coordinate is in the block's range. -/
theorem mem_blk1 (t : Fin cfg1.N) (i : S6400x128.Idx) :
    i ∈ ((cfg1.win 3).blk t).view.set ↔ ∀ a : Fin 2, win1_3.index t a * S200x128.size a ≤ (i a).val ∧ (i a).val < win1_3.index t a * S200x128.size a + S200x128.size a := by
  show i ∈ ((View.whole main_v15).slice (win1_3.rect t)).set ↔ _
  rw [View.set_slice_whole, Rect.mem_set_unit]
  exact Iff.rfl

/-- Row `r` is covered by point `r / 200`: its graph's. -/
theorem cover1 (i : S6400x128.Idx) : ∃ t : Fin cfg1.N, (cfg1.win 3).flush t = true ∧ i ∈ ((cfg1.win 3).blk t).view.set := by
  have h0 : (i 0).val < 6400 := (i 0).isLt
  have h1 : (i 1).val < 128 := (i 1).isLt
  have hN : cfg1.N = 32 := N_1
  refine ⟨⟨(i 0).val / 200, by rw [hN]; omega⟩, flush1_3 _, ?_⟩
  rw [mem_blk1]
  obtain ⟨-, -, -, -, -, -, e6, e7, -⟩ := idx_facts1 ⟨(i 0).val / 200, by rw [hN]; omega⟩
  intro a
  match a with
  | ⟨0, _⟩ => show win1_3.index _ 0 * 200 ≤ (i 0).val ∧ (i 0).val < win1_3.index _ 0 * 200 + 200; rw [e6]; show (i 0).val / 200 * 200 ≤ (i 0).val ∧ (i 0).val < (i 0).val / 200 * 200 + 200; omega
  | ⟨1, _⟩ => show win1_3.index _ 1 * 128 ≤ (i 1).val ∧ (i 1).val < win1_3.index _ 1 * 128 + 128; rw [e7]; omega

/-- Region 1 leaves the convolution in its result array. -/
theorem final1 (μ : (⟨2, ![200, 200]⟩ : Shape).Idx → EReal) (c : Dev nD)
    (hμ : (V c main_v13 : (⟨2, ![200, 6400]⟩ : Shape).Idx → EReal) = tile μ) :
    (dat1 V c).arrAt 3 cfg1.N = conv (V c main_arg0) μ (V c main_v14) :=
  (dat1 V c).arrAt_eq_of_cover 3 _ (fun t _ => flushed1 V μ c hμ t) cover1

end Cert.KernelIdeal.Conv
end
-- ==== Proof.KernelTile.lean ====
/-
  The 200 × 200 edge mask laid side by side 32 times, read index by index.

  Three layout steps: the mask viewed as 1 × 200 × 1 × 200, repeated along the third axis to 1 × 200 × 32 × 200, and that viewed
  as 200 × 6400. In row-major order element `(p, k)` of the last array is element `(0, p, k / 200, k % 200)` of the second
  (`p · 6400 + k = (p · 32 + k / 200) · 200 + k % 200`); the repetition reads `(0, p, 0, k % 200)` of the first, which is
  element `(p, k % 200)` of the mask. So column `k` of the 6400 reads the mask's column `k % 200`.
-/
import proofs.«166309_j39565238731020_1_alg».proof.Proof.Gen.KernelIdeal
import proofs.«166309_j39565238731020_1_alg».proof.Proof.Spec
import Idealize.ShloMosaic.Lib.Pipeline.Value
import Idealize.ShloMosaic.Lib.ValueIdx

noncomputable section

namespace Cert.KernelIdeal.Conv

open Cert.KernelIdeal Cert.KernelIdeal.Gen Idealize.ShloMosaic Idealize.ShloMosaic.ValueIdx Cert.GraphConv

/-- The tiled mask at row `p`, column `k`: the mask at `(p, k % 200)`. -/
theorem tiled_apply (μ : S200x200.Idx → EReal) (p : Fin 200) (k : Fin 6400) :
    shapeCast S200x6400
        (broadcastInDim S1x200x32x200 ![0, 1, 2, 3] bcast_S1x200x1x200_S1x200x32x200_0_1_2_3
          (shapeCast S1x200x1x200 μ shapeCasts_S200x200_S1x200x1x200))
        shapeCasts_S1x200x32x200_S200x6400 (ix2 p k)
      = μ (ix2 p ⟨k.val % 200, Nat.mod_lt _ (by decide)⟩) := by
  have hk := k.isLt
  have hp := p.isLt
  rw [shapeCast_apply _ shapeCasts_S1x200x32x200_S200x6400 (ix2 p k)
    (ix4 (0 : Fin 1) p (⟨k.val / 200, by omega⟩ : Fin 32) (⟨k.val % 200, Nat.mod_lt _ (by decide)⟩ : Fin 200))
    (by
      rewrite [Shape.rowMajor_val_four, Shape.rowMajor_val_two]
      show ((0 * 200 + p.val) * 32 + k.val / 200) * 200 + k.val % 200 = p.val * 6400 + k.val
      omega)]
  rw [broadcastInDim_apply _ bcast_S1x200x1x200_S1x200x32x200_0_1_2_3 _ _
    (ix4 (0 : Fin 1) p (0 : Fin 1) (⟨k.val % 200, Nat.mod_lt _ (by decide)⟩ : Fin 200))
    (fun a => match a with
      | ⟨0, _⟩ => by show 0 = if (1 : Nat) = 1 then 0 else 0; rw [if_pos rfl]
      | ⟨1, _⟩ => by show p.val = if (200 : Nat) = 1 then 0 else p.val; rw [if_neg (by decide)]
      | ⟨2, _⟩ => by show 0 = if (1 : Nat) = 1 then 0 else k.val / 200; rw [if_pos rfl]
      | ⟨3, _⟩ => by show k.val % 200 = if (200 : Nat) = 1 then 0 else k.val % 200; rw [if_neg (by decide)])]
  exact shapeCast_apply μ shapeCasts_S200x200_S1x200x1x200 _ (ix2 p ⟨k.val % 200, Nat.mod_lt _ (by decide)⟩)
    (by
      rewrite [Shape.rowMajor_val_two, Shape.rowMajor_val_four]
      show p.val * 200 + k.val % 200 = ((0 * 200 + p.val) * 1 + 0) * 200 + k.val % 200
      omega)

/-- The three layout steps together are the mask laid side by side 32 times. -/
theorem tiled_eq (μ : S200x200.Idx → EReal) :
    shapeCast S200x6400
        (broadcastInDim S1x200x32x200 ![0, 1, 2, 3] bcast_S1x200x1x200_S1x200x32x200_0_1_2_3
          (shapeCast S1x200x1x200 μ shapeCasts_S200x200_S1x200x1x200))
        shapeCasts_S1x200x32x200_S200x6400
      = tile μ := by
  funext o
  obtain ⟨p, k, rfl⟩ : ∃ (p : Fin 200) (k : Fin 6400), o = ix2 p k := ⟨o 0, o 1, eq_ix2 o⟩
  rw [tiled_apply, tile_apply]

end Cert.KernelIdeal.Conv

end
-- ==== Proof.KernelRun.lean ====
/-
  The idealized kernel's run, read: the result buffer ends holding the masked graph convolution of the arguments.

  @main first computes the mask on the host from the fourth argument — `(R + Rᵀ) · ½ + I`, the identity as the 0/1 word of
  `row = column` converted to a float — and lays it side by side 32 times. Region 0 then leaves the support `feat · weight` in its
  result array, which region 1 reads whole; no host operation and no region writes an argument. So region 1 is entered with
  the adjacency and the tiled mask and the support in its three input arrays, and leaves the convolution in the result.
-/
import proofs.«166309_j39565238731020_1_alg».proof.Proof.KernelBlocks
import proofs.«166309_j39565238731020_1_alg».proof.Proof.KernelTile
import Idealize.ShloMosaic.Lib.StableHlo.Run
import Idealize.ShloMosaic.Lib.Tactic

noncomputable section

open Idealize.ShloMosaic Idealize.ShloMosaic.TcCoe Idealize.ShloMosaic.ValueIdx Idealize.SL.Sem Idealize.ShloMosaic.StableHlo

namespace Cert.KernelIdeal.Conv

open Cert.KernelIdeal Cert.KernelIdeal.Gen Cert.KernelIdeal.GenP Cert.GraphConv

variable (m : (ℓ : Loc nD τ sig) → Buf (Elt Ideal) ℓ) (ρ : Dev nD → PrngReg)

/-- The edge mask as @main's host operations compute it: `(x + xᵀ) · ½ + [row = column]`. -/
def maskK (x3 : S200x200.Idx → EReal) : S200x200.Idx → EReal :=
  addf (mulf (addf x3 (transpose S200x200 [1, 0] x3 transposes_S200x200_S200x200_1_0))
      (broadcastInDim S200x200 ![] bcast_S_S200x200 (constant (F := Ideal) S_ .f32 0x3F000000#32)))
    (uitofp (F := Ideal) .f32 (cmpi .eq (addi (iotaInDim S200x200 32 0) (broadcastInDim S200x200 ![] bcast_S_S200x200 (constantI S_ 32 0#32)))
      (iotaInDim S200x200 32 1)))

/-- After the host stretch the tiled-mask buffer holds the mask reshaped, broadcast over the 32 graphs and reshaped again. -/
theorem W1_v13 (c : Dev nD) : (W1 m ρ c (Proc.devRef .tc main_v13) : S200x6400.Idx → EReal)
    = shapeCast S200x6400 (broadcastInDim S1x200x32x200 ![0, 1, 2, 3] bcast_S1x200x1x200_S1x200x32x200_0_1_2_3
        (shapeCast S1x200x1x200 (maskK (m ((c : Thread nD τ).loc main_arg3))) shapeCasts_S200x200_S1x200x1x200)) shapeCasts_S1x200x32x200_S200x6400 := by
  show StableHlo.after hostOps0 (W0 m ρ c) (Proc.devRef .tc main_v13) = _
  after_results
  rfl

/-- The host stretch writes no argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results

/-- Region 1 is entered with the adjacency as launched, -/
theorem V2_arg0 (c : Dev nD) : V2 m ρ c main_arg0 = m ((c : Thread nD τ).loc main_arg0) :=
  (W2_of_ne m ρ c main_arg0 (by decide)).trans (W1_arg0 m ρ c)

/-- the mask tiled, -/
theorem V2_v13 (c : Dev nD) : (V2 m ρ c main_v13 : S200x6400.Idx → EReal) = tile (maskK (m ((c : Thread nD τ).loc main_arg3))) :=
  (W2_of_ne m ρ c main_v13 (by decide)).trans ((W1_v13 m ρ c).trans (tiled_eq _))

/-- and the support of `feat` and `weight` as launched: what region 0's write-backs left. -/
theorem V2_v14 (c : Dev nD) : (V2 m ρ c main_v14 : S6400x128.Idx → EReal)
    = support (m ((c : Thread nD τ).loc main_arg1)) (m ((c : Thread nD τ).loc main_arg2)) := by
  refine (W2_arr m ρ c 2).trans ?_
  rw [final0 (V1 m ρ) c]
  show support (W1 m ρ c (Proc.devRef .tc main_arg1)) (W1 m ρ c (Proc.devRef .tc main_arg2)) = _
  rw [W1_arg1, W1_arg2]

/-- The result buffer's last contents: the convolution of the arguments. -/
theorem result (c : Dev nD) : (W3 m ρ c (Proc.devRef .tc main_v15) : S6400x128.Idx → EReal)
    = conv (m ((c : Thread nD τ).loc main_arg0)) (maskK (m ((c : Thread nD τ).loc main_arg3)))
        (support (m ((c : Thread nD τ).loc main_arg1)) (m ((c : Thread nD τ).loc main_arg2))) := by
  refine (W3_arr m ρ c 3).trans ?_
  rw [final1 (V2 m ρ) (maskK (m ((c : Thread nD τ).loc main_arg3))) c (V2_v13 m ρ c), V2_arg0, V2_v14]

/-- The run: every weakly fair execution ends with the result buffer at the convolution and the arguments as launched. -/
theorem run : θ_run defs (onTc (τ := τ) (main (F := Ideal))) ⟨m, fun _ => 0, ρ⟩ (fun r => ∀ c : Dev nD,
      r.2.mem ((c.tc : Thread nD τ).loc main_v15)
        = conv (m ((c : Thread nD τ).loc main_arg0)) (maskK (m ((c : Thread nD τ).loc main_arg3)))
            (support (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (run_main m ρ)

end Cert.KernelIdeal.Conv

end
-- ==== Proof.RefValue.lean ====
/-
  The reference program's result, read index by index, is the masked graph convolution of its arguments.

  The program views the 6400 × 6400 adjacency as 32 × 200 × 32 × 200 (row `200 b + i`, column `200 c + j` at `(b, i, c, j)`)
  and gathers, for each graph `b`, the diagonal block `(b, ·, b, ·)`: the two start-index columns both hold `b` (a counter
  below 32 is not negative, so "add 32 if negative" leaves it), the word of `b` read back signed is `b`, and `b ≤ 31` is not
  moved by the clamp to the last block. So the gathered array at `(b, i, j)` is the adjacency at `(200 b + i, 200 b + j)`.
  Then, elementwise, `1 / (1 + e^(-a))` is the logistic function of `a`, the mask is laid over every graph unchanged,
  the support `feat · weight` viewed as 32 × 200 × 128 has at `(b, k, f)` its row `200 b + k`, and the batched product sums over
  the 200 nodes `k` of the graph. For output row `r` the graph is `r / 200` and the node `r % 200`: term by term this is the
  sum that defines the convolution.
-/
import proofs.«166309_j39565238731020_1_alg».proof.Defs
import proofs.«166309_j39565238731020_1_alg».proof.Proof.Gen.ReferenceIdeal.Run
import proofs.«166309_j39565238731020_1_alg».proof.Proof.Gen.ReferenceIdeal.Read
import proofs.«166309_j39565238731020_1_alg».proof.Proof.Spec
import Idealize.ShloMosaic.Lib.ValueIdx
import Idealize.ShloMosaic.Lib.Pipeline.Value
import Idealize.ShloMosaic.Lib.IdealHost

noncomputable section

namespace Cert.ReferenceIdeal.RefConv

open Cert.ReferenceIdeal Cert.ReferenceIdeal.Gen Cert.ReferenceIdeal.Read Idealize.ShloMosaic Idealize.ShloMosaic.ValueIdx Cert.GraphConv

/-- The index column's entry for graph `b`: "if the counter is negative add 32" leaves a counter below 32 as it is. -/
theorem word_select (b : Fin 32) :
    Scalar.select (IntOp.cmpi .slt (BitVec.ofNat 32 b.val) 0#32) (IntOp.addi (BitVec.ofNat 32 b.val) 32#32) (BitVec.ofNat 32 b.val)
      = BitVec.ofNat 32 b.val := by
  revert b; decide

/-- The first index vector holds `b` at `b`. -/
theorem col17 (b : Fin 32) : val_main_v17 (F := Ideal) (ix1 b) = BitVec.ofNat 32 b.val := by
  rw [val_main_v17_apply, val_main_v14_apply, val_main_v16_apply, val_main_v11_apply, val_main_v13_apply, val_main_v15_apply,
    val_main_c_0_apply, val_main_c_1_apply]
  exact word_select b

/-- The second index vector holds `b` at `b`. -/
theorem col22 (b : Fin 32) : val_main_v22 (F := Ideal) (ix1 b) = BitVec.ofNat 32 b.val := by
  rw [val_main_v22_apply, val_main_v19_apply, val_main_v21_apply, val_main_v11_apply, val_main_v18_apply, val_main_v20_apply,
    val_main_c_2_apply, val_main_c_3_apply]
  exact word_select b

/-- The first index vector as a column. -/
theorem col23 (b : Fin 32) (z : Fin 1) : val_main_v23 (F := Ideal) (ix2 b z) = BitVec.ofNat 32 b.val := by
  rw [val_main_v23_apply, show idx_main_v23 (ix2 b z) = ix1 b from funext fun a => Fin.ext (by match a with | ⟨0, _⟩ => rfl)]
  exact col17 b

/-- The second index vector as a column. -/
theorem col24 (b : Fin 32) (z : Fin 1) : val_main_v24 (F := Ideal) (ix2 b z) = BitVec.ofNat 32 b.val := by
  rw [val_main_v24_apply, show idx_main_v24 (ix2 b z) = ix1 b from funext fun a => Fin.ext (by match a with | ⟨0, _⟩ => rfl)]
  exact col22 b

/-- Both columns of the start indices hold the graph's own number. -/
theorem pair_apply (b : Fin 32) (c : Fin 2) : val_main_v25 (F := Ideal) (ix2 b c) = BitVec.ofNat 32 b.val := by
  unfold val_main_v25
  match c with
  | ⟨0, _⟩ =>
    rw [concatenate_pair_apply_left (1 : Fin S32x2.rank) (val_main_v23 (F := Ideal)) (val_main_v24 (F := Ideal))
      concatenates_S32x1_S32x1_S32x2_d1 (ix2 b ⟨0, by decide⟩) rfl (ix2 b (0 : Fin 1))
      (fun a => by match a with | ⟨0, _⟩ => rfl | ⟨1, _⟩ => rfl)]
    exact col23 b 0
  | ⟨1, _⟩ =>
    rw [concatenate_pair_apply_right (1 : Fin S32x2.rank) (val_main_v23 (F := Ideal)) (val_main_v24 (F := Ideal))
      concatenates_S32x1_S32x1_S32x2_d1 (ix2 b ⟨1, by decide⟩) rfl rfl (ix2 b (0 : Fin 1))
      (fun a ha => by match a, ha with | ⟨0, _⟩, _ => rfl | ⟨1, _⟩, ha => exact absurd rfl ha) rfl]
    exact col24 b 0

/-- A graph number below 32, written as a 32-bit word, read back signed and clamped to the last of the 32 blocks, is itself. -/
theorem clamp_word (b : Fin 32) (a : Fin 4) (ha : a = 0 ∨ a = 2) :
    min (BitVec.ofNat 32 b.val).toInt.toNat (S32x200x32x200.size a - gather_S32x200x32x200_S32x2_S32x200x200_12_02_n_n_02_1_12001200.sliceSizes a) = b.val := by
  revert b a; decide

/-- The start-index component `c` of the slice for result element `(b, i, j)` sits at `(b, c)`. -/
theorem start_pos (b : Fin 32) (i j : Fin 200) (c : Fin gather_S32x200x32x200_S32x2_S32x200x200_12_02_n_n_02_1_12001200.startIndexMap.length) :
    gather_S32x200x32x200_S32x2_S32x200x200_12_02_n_n_02_1_12001200.siIdx (ix3 b i j) c = ix2 b (Fin.mk (n := 2) c.val c.isLt) := by
  funext a
  refine Fin.ext ?_
  match a with
  | ⟨0, _⟩ => rfl
  | ⟨1, _⟩ => rfl

/-- The element of the four-axis view that result element `(b, i, j)` reads: block `(b, b)`, at `(i, j)`. -/
theorem operand_pos (b : Fin 32) (i j : Fin 200) :
    gather_S32x200x32x200_S32x2_S32x200x200_12_02_n_n_02_1_12001200.operandIdx (ix3 b i j) (val_main_v25 (F := Ideal)) = ix4 b i b j := by
  funext a
  refine Fin.ext ?_
  match a with
  | ⟨0, _⟩ =>
    show gather_S32x200x32x200_S32x2_S32x200x200_12_02_n_n_02_1_12001200.start (ix3 b i j) (val_main_v25 (F := Ideal)) 0 + gather_S32x200x32x200_S32x2_S32x200x200_12_02_n_n_02_1_12001200.batchCoord (ix3 b i j) 0 + gather_S32x200x32x200_S32x2_S32x200x200_12_02_n_n_02_1_12001200.offCoord (ix3 b i j) 0 = b.val
    have hs : gather_S32x200x32x200_S32x2_S32x200x200_12_02_n_n_02_1_12001200.start (ix3 b i j) (val_main_v25 (F := Ideal)) 0 = b.val := by
      unfold GatherDims.start
      rw [dif_pos (show (0 : Fin 4) ∈ gather_S32x200x32x200_S32x2_S32x200x200_12_02_n_n_02_1_12001200.startIndexMap by decide), start_pos, pair_apply]
      exact clamp_word b 0 (Or.inl rfl)
    rw [hs, GatherDims.batchCoord_eq_zero _ _ _ List.not_mem_nil, GatherDims.offCoord_eq_zero _ _ _ (by decide)]
    rfl
  | ⟨1, _⟩ =>
    show gather_S32x200x32x200_S32x2_S32x200x200_12_02_n_n_02_1_12001200.start (ix3 b i j) (val_main_v25 (F := Ideal)) 1 + gather_S32x200x32x200_S32x2_S32x200x200_12_02_n_n_02_1_12001200.batchCoord (ix3 b i j) 1 + gather_S32x200x32x200_S32x2_S32x200x200_12_02_n_n_02_1_12001200.offCoord (ix3 b i j) 1 = i.val
    have hs : gather_S32x200x32x200_S32x2_S32x200x200_12_02_n_n_02_1_12001200.start (ix3 b i j) (val_main_v25 (F := Ideal)) 1 = 0 := by
      unfold GatherDims.start
      rw [dif_neg (show (1 : Fin 4) ∉ gather_S32x200x32x200_S32x2_S32x200x200_12_02_n_n_02_1_12001200.startIndexMap by decide)]
    have ho : gather_S32x200x32x200_S32x2_S32x200x200_12_02_n_n_02_1_12001200.offCoord (ix3 b i j) 1 = i.val := by
      unfold GatherDims.offCoord
      rw [dif_pos (show (1 : Fin 4) ∈ gather_S32x200x32x200_S32x2_S32x200x200_12_02_n_n_02_1_12001200.sKept by decide)]
      rfl
    rw [hs, ho, GatherDims.batchCoord_eq_zero _ _ _ List.not_mem_nil, Nat.zero_add]
  | ⟨2, _⟩ =>
    show gather_S32x200x32x200_S32x2_S32x200x200_12_02_n_n_02_1_12001200.start (ix3 b i j) (val_main_v25 (F := Ideal)) 2 + gather_S32x200x32x200_S32x2_S32x200x200_12_02_n_n_02_1_12001200.batchCoord (ix3 b i j) 2 + gather_S32x200x32x200_S32x2_S32x200x200_12_02_n_n_02_1_12001200.offCoord (ix3 b i j) 2 = b.val
    have hs : gather_S32x200x32x200_S32x2_S32x200x200_12_02_n_n_02_1_12001200.start (ix3 b i j) (val_main_v25 (F := Ideal)) 2 = b.val := by
      unfold GatherDims.start
      rw [dif_pos (show (2 : Fin 4) ∈ gather_S32x200x32x200_S32x2_S32x200x200_12_02_n_n_02_1_12001200.startIndexMap by decide), start_pos, pair_apply]
      exact clamp_word b 2 (Or.inr rfl)
    rw [hs, GatherDims.batchCoord_eq_zero _ _ _ List.not_mem_nil, GatherDims.offCoord_eq_zero _ _ _ (by decide)]
    rfl
  | ⟨3, _⟩ =>
    show gather_S32x200x32x200_S32x2_S32x200x200_12_02_n_n_02_1_12001200.start (ix3 b i j) (val_main_v25 (F := Ideal)) 3 + gather_S32x200x32x200_S32x2_S32x200x200_12_02_n_n_02_1_12001200.batchCoord (ix3 b i j) 3 + gather_S32x200x32x200_S32x2_S32x200x200_12_02_n_n_02_1_12001200.offCoord (ix3 b i j) 3 = j.val
    have hs : gather_S32x200x32x200_S32x2_S32x200x200_12_02_n_n_02_1_12001200.start (ix3 b i j) (val_main_v25 (F := Ideal)) 3 = 0 := by
      unfold GatherDims.start
      rw [dif_neg (show (3 : Fin 4) ∉ gather_S32x200x32x200_S32x2_S32x200x200_12_02_n_n_02_1_12001200.startIndexMap by decide)]
    have ho : gather_S32x200x32x200_S32x2_S32x200x200_12_02_n_n_02_1_12001200.offCoord (ix3 b i j) 3 = j.val := by
      unfold GatherDims.offCoord
      rw [dif_pos (show (3 : Fin 4) ∈ gather_S32x200x32x200_S32x2_S32x200x200_12_02_n_n_02_1_12001200.sKept by decide)]
      rfl
    rw [hs, ho, GatherDims.batchCoord_eq_zero _ _ _ List.not_mem_nil, Nat.zero_add]

/-- Row `r`'s graph. -/
def graph (r : Fin 6400) : Fin 32 := ⟨r.val / 200, by have := r.isLt; omega⟩

/-- Its value. -/
theorem graph_val (r : Fin 6400) : (graph r).val = r.val / 200 := rfl

/-- The gathered block `b` at `(i, j)` is the adjacency at row `200 b + i`, column `200 b + j`. -/
theorem block_apply (x0 : (⟨S6400x6400, .f32⟩ : BufTy).Contents (Elt Ideal)) (b : Fin 32) (i j : Fin 200) :
    val_main_v26 (F := Ideal) x0 (ix3 b i j)
      = x0 (ix2 (⟨b.val * 200 + i.val, by have := b.isLt; have := i.isLt; omega⟩ : Fin 6400)
          (⟨b.val * 200 + j.val, by have := b.isLt; have := j.isLt; omega⟩ : Fin 6400)) := by
  show val_main_v12 (F := Ideal) x0 (gather_S32x200x32x200_S32x2_S32x200x200_12_02_n_n_02_1_12001200.operandIdx (ix3 b i j) (val_main_v25 (F := Ideal))) = _
  rw [operand_pos, val_main_v12_apply]
  congr 1
  funext a
  refine Fin.ext ?_
  have hb := b.isLt; have hi := i.isLt; have hj := j.isLt
  match a with
  | ⟨0, _⟩ =>
    show (((b.val * 200 + i.val) * 32 + b.val) * 200 + j.val) / 6400 = b.val * 200 + i.val
    omega
  | ⟨1, _⟩ =>
    show (((b.val * 200 + i.val) * 32 + b.val) * 200 + j.val) % 6400 = b.val * 200 + j.val
    omega

/-- In row `r`'s own graph, the gathered block at `(node r, k)` is the adjacency at `(r, lane r k)`. -/
theorem block_row (x0 : (⟨S6400x6400, .f32⟩ : BufTy).Contents (Elt Ideal)) (r : Fin 6400) (k : Fin 200) :
    val_main_v26 (F := Ideal) x0 (ix3 (graph r) (node r) k) = x0 (ix2 r (lane r k)) := by
  rw [block_apply]
  congr 1
  funext a
  refine Fin.ext ?_
  match a with
  | ⟨0, _⟩ =>
    show r.val / 200 * 200 + r.val % 200 = r.val
    omega
  | ⟨1, _⟩ => rfl

/-- The contraction of the batched product, left operand: output row `r` reads graph `r / 200`, node `r % 200`, neighbour `k`. -/
theorem left_pos (r : Fin 6400) (f : Fin 128) (k : Fin 200) :
    lidx_main_v38 (idx_main_v39 (ix2 r f)) k = ix3 (graph r) (node r) k := by
  funext a
  refine Fin.ext ?_
  have hr := r.isLt; have hf := f.isLt
  match a with
  | ⟨0, _⟩ =>
    show (r.val * 128 + f.val) / 25600 = r.val / 200
    omega
  | ⟨1, _⟩ =>
    show (r.val * 128 + f.val) / 128 % 200 = r.val % 200
    omega
  | ⟨2, _⟩ => rfl

/-- The right operand: graph `r / 200`, neighbour `k`, feature `f`. -/
theorem right_pos (r : Fin 6400) (f : Fin 128) (k : Fin 200) :
    ridx_main_v38 (idx_main_v39 (ix2 r f)) k = ix3 (graph r) k f := by
  funext a
  refine Fin.ext ?_
  have hr := r.isLt; have hf := f.isLt
  match a with
  | ⟨0, _⟩ =>
    show (r.val * 128 + f.val) / 25600 = r.val / 200
    omega
  | ⟨1, _⟩ => rfl
  | ⟨2, _⟩ =>
    show (r.val * 128 + f.val) % 128 = f.val
    omega

/-- The mask laid over every graph reads the mask itself. -/
theorem mask_pos (b : Fin 32) (i j : Fin 200) : idx_main_v33 (idx_main_v34 (ix3 b i j)) = ix2 i j := by
  funext a
  refine Fin.ext ?_
  match a with
  | ⟨0, _⟩ => rfl
  | ⟨1, _⟩ => rfl

/-- The support's three-axis view at graph `r / 200`, node `k` is its row `lane r k`. -/
theorem support_pos (r : Fin 6400) (k : Fin 200) (f : Fin 128) : idx_main_v37 (ix3 (graph r) k f) = ix2 (lane r k) f := by
  funext a
  refine Fin.ext ?_
  have hr := r.isLt; have hk := k.isLt; have hf := f.isLt
  match a with
  | ⟨0, _⟩ =>
    show ((r.val / 200 * 200 + k.val) * 128 + f.val) / 128 = r.val / 200 * 200 + k.val
    omega
  | ⟨1, _⟩ =>
    show ((r.val / 200 * 200 + k.val) * 128 + f.val) % 128 = f.val
    omega

/-- The support's product, left operand: row `R`, input feature `q`. -/
theorem lpos36 (R : Fin 6400) (f q : Fin 128) : lidx_main_v36 (ix2 R f) q = ix2 R q := by
  funext a
  refine Fin.ext ?_
  match a with
  | ⟨0, _⟩ => rfl
  | ⟨1, _⟩ => rfl

/-- The support's product, right operand: input feature `q`, output feature `f`. -/
theorem rpos36 (R : Fin 6400) (f q : Fin 128) : ridx_main_v36 (ix2 R f) q = ix2 q f := by
  funext a
  refine Fin.ext ?_
  match a with
  | ⟨0, _⟩ => rfl
  | ⟨1, _⟩ => rfl

/-- One over one plus the exponential of the negation, as the reference spells it, is the logistic function. -/
theorem logistic_spelled (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x))) = Ideal.logistic x := by
  rw [Ideal.ofBits_def, Ideal.ofBits_one_f32]
  rfl

/-- The reference's result is the masked graph convolution of its arguments. -/
theorem result_eq
    (x0 : (⟨S6400x6400, .f32⟩ : BufTy).Contents (Elt Ideal)) (x1 : (⟨S6400x128, .f32⟩ : BufTy).Contents (Elt Ideal))
    (x2 : (⟨S128x128, .f32⟩ : BufTy).Contents (Elt Ideal)) (x3 : (⟨S200x200, .f32⟩ : BufTy).Contents (Elt Ideal)) :
    val_main_v39 (F := Ideal) x0 x1 x2 x3 = conv x0 (val_main_v10 (F := Ideal) x3) (support x1 x2) := by
  funext o
  obtain ⟨r, f, rfl⟩ : ∃ (r : Fin 6400) (f : Fin 128), o = ix2 r f := ⟨o 0, o 1, eq_ix2 o⟩
  rw [conv_apply, val_main_v39_apply, val_main_v38_apply]
  refine Finset.sum_congr rfl fun k _ => ?_
  rw [left_pos, right_pos, val_main_v35_apply, val_main_v32_apply, val_main_v31_apply, val_main_cst_5_apply, val_main_v30_apply,
    val_main_v29_apply, val_main_cst_4_apply, val_main_v28_apply, val_main_v27_apply, block_row,
    val_main_v34_apply, val_main_v33_apply, mask_pos, val_main_v37_apply, support_pos, val_main_v36_apply, support_apply,
    logistic_spelled]
  rw [Ideal.mulf_def]
  refine congrArg _ (Finset.sum_congr rfl fun q _ => ?_)
  rw [lpos36, rpos36]

end Cert.ReferenceIdeal.RefConv

end
-- ==== Proof.Claims.lean ====
/-
  The five claims.

  Both idealized programs end with the same array: the masked graph convolution `conv adj μ (feat · weight)` of the arguments,
  `μ` the edge mask. The kernel's run leaves it by the two regions (the support, then the convolution with each row's 6400-lane
  sum collapsed to its own graph's 200 lanes); the reference's run computes it directly on the diagonal blocks. The two
  programs compute the mask by the same host operations of the fourth argument, so their two mask terms are one term.
  The frames of the two kernel programs are their launches; the reference's frame is its run with the result dropped; the
  idealization rewrote no operation, so there is nothing to preserve.
-/
import proofs.«166309_j39565238731020_1_alg».proof.Defs
import proofs.«166309_j39565238731020_1_alg».proof.Proof.Gen.Kernel
import proofs.«166309_j39565238731020_1_alg».proof.Proof.Gen.KernelIdeal
import proofs.«166309_j39565238731020_1_alg».proof.Proof.Gen.ReferenceIdeal
import proofs.«166309_j39565238731020_1_alg».proof.Proof.Gen.Pre_finite_inputs
import proofs.«166309_j39565238731020_1_alg».proof.Proof.FrameKernel
import proofs.«166309_j39565238731020_1_alg».proof.Proof.FrameKernelIdeal
import proofs.«166309_j39565238731020_1_alg».proof.Proof.KernelRun
import proofs.«166309_j39565238731020_1_alg».proof.Proof.RefValue

noncomputable section

open Idealize.ShloMosaic Idealize.ShloMosaic.TcCoe Idealize.SL.Sem

namespace Cert.Proof.Claims

/-- The mask term of the kernel's host stretch is the reference's mask stage: the same operations of the same argument. -/
theorem mask_eq (x3 : Cert.ReferenceIdeal.S200x200.Idx → EReal) :
    Cert.KernelIdeal.Conv.maskK x3 = Cert.ReferenceIdeal.Read.val_main_v10 (F := Ideal) x3 := rfl

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments both runs end with the result at the convolution of those arguments. -/
theorem algebraic : Cert.algebraic_KernelIdeal_ReferenceIdeal := by
  intro m ρ m' ρ' _ hagree
  refine ⟨_, Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefConv.result_eq,
    (hagree c).1, (hagree c).2.1, (hagree c).2.2.1, (hagree c).2.2.2, ← mask_eq]

end Cert.Proof.Claims

end
-- ==== Proof.lean ====
/-
  `Cert.Claim` for the masked graph convolution: the three frames, the (empty) idealization ledger, and the equality over the
  extended reals of the kernel's and the reference's results. The witnesses of the programs' stated side conditions come first;
  the five conjuncts are proved in Proof/Claims.lean.
-/
import proofs.«166309_j39565238731020_1_alg».proof.Defs
import proofs.«166309_j39565238731020_1_alg».proof.Proof.Gen.Kernel
import proofs.«166309_j39565238731020_1_alg».proof.Proof.Gen.Kernel.Skeleton
import proofs.«166309_j39565238731020_1_alg».proof.Proof.Gen.Kernel.Launch
import proofs.«166309_j39565238731020_1_alg».proof.Proof.Gen.Kernel.Points
import proofs.«166309_j39565238731020_1_alg».proof.Proof.FrameKernel
import proofs.«166309_j39565238731020_1_alg».proof.Proof.Gen.KernelIdeal
import proofs.«166309_j39565238731020_1_alg».proof.Proof.Gen.KernelIdeal.Skeleton
import proofs.«166309_j39565238731020_1_alg».proof.Proof.Gen.KernelIdeal.Launch
import proofs.«166309_j39565238731020_1_alg».proof.Proof.Gen.KernelIdeal.Points
import proofs.«166309_j39565238731020_1_alg».proof.Proof.FrameKernelIdeal
import proofs.«166309_j39565238731020_1_alg».proof.Proof.Gen.ReferenceIdeal
import proofs.«166309_j39565238731020_1_alg».proof.Proof.Gen.Pre_finite_inputs
import proofs.«166309_j39565238731020_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
